-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 17
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S8192x4096, .bf16⟩
  | .hbm, ⟨14, _⟩ => ⟨S4096x4096, .bf16⟩
  | .hbm, ⟨15, _⟩ => ⟨S1x4096, .f32⟩
  | .hbm, ⟨16, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call1_v0 : Ref sig .tc := ⟨.hbm, 6, rfl⟩
abbrev main_call1_v1 : Ref sig .tc := ⟨.hbm, 7, rfl⟩
abbrev main_call1_v2 : Ref sig .tc := ⟨.hbm, 8, rfl⟩
abbrev main_call1_v3 : Ref sig .tc := ⟨.hbm, 9, rfl⟩
abbrev main_call1_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call1_v0 : Ref sig .tc := ⟨.hbm, 6, rfl⟩
abbrev main_call1_v1 : Ref sig .tc := ⟨.hbm, 7, rfl⟩
abbrev main_call1_v2 : Ref sig .tc := ⟨.hbm, 8, rfl⟩
abbrev main_call1_v3 : Ref sig .tc := ⟨.hbm, 9, rfl⟩
abbrev main_call1_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one run of the kernel body leaves behind, as values.

  The body keeps a 1024 × 1024 running total in a scratch buffer. At the first step of a contraction it stores the zero
  block there; at every step it adds the product of the step's input block `x` (1024 × 1024) and weight block `w`
  (1024 × 1024) to what the scratch holds; at the last step it also stores the running total plus the bias row,
  repeated down the rows, into the output block. So, with `acc` what the scratch held on entry:

    first step   scratch := 0 + x·w
    middle step  scratch := acc + x·w
    last step    scratch := acc + x·w,  output := (acc + x·w) + bias row

  Each is one covering store whose payload reads whole buffers; a load of the scratch after a store in the same run
  reads what that store wrote.
-/
import proofs.«137187_j48180943127010_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem origin : (![0, 0] : Fin 2 → Nat) = fun _ => 0 := funext fun a => by fin_cases a <;> rfl

/-- First step of a contraction: the scratch ends at the zero block plus the blocks' product. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x1024) origin]

/-- A middle step: the scratch ends at what it held plus the blocks' product. -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg7.read_unread,
    View.ld_unit_zero (S := S1024x1024) origin]

/-- The last step: the scratch as at a middle step, -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread,
    View.ld_unit_zero (S := S1024x1024) origin]

/-- and the output block: that running total plus the bias row down the rows. -/
theorem output_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin, View.readCov_unit_zero (S := S1024x1024) _ origin]
  simp only [View.readAt_eq_ld, harg3.read_unread, harg4.read_unread, harg5.read_unread, harg7.read_unread,
    View.ld_unit_zero (S := S1024x1024) origin, View.ld_unit_zero (S := S1x1024) origin]

end Cert.KernelIdeal.Pieces

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.Payload.lean ====
/-
  The body's arithmetic at one entry, on the extended reals.

  The zero block is `0` everywhere. One accumulation step adds, at entry `(p, q)`, the product of row `p` of the input
  block with column `q` of the weight block — a sum over the block's 1024 contraction positions — to the running total's
  entry. The final store adds the bias row's entry `q` to every row.
-/
import proofs.«137187_j48180943127010_1_alg».proof.Proof.Gen.KernelIdeal.Skeleton
import proofs.«137187_j48180943127010_1_alg».proof.Proof.LibPlainProduct
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-- The block a contraction starts from is zero at every entry. -/
theorem reset_apply (p q : Fin 1024) : k0_pay1 (F := Ideal) (ix2 p q) = 0 := by
  unfold k0_pay1
  rw [shapeCast_self]
  exact Ideal.ofBits_zero_f32

/-- One step at `(p, q)`: the running total's entry plus `∑ k, x (p, k) · w (k, q)`. -/
theorem step_apply (acc : Vec Ideal S1024x1024 .f32) (x w : Vec Ideal S1024x1024 .bf16) (p q : Fin 1024) :
    k0_pay2 acc x w (ix2 p q) = acc (ix2 p q) + ∑ k : Fin 1024, x (ix2 p k) * w (ix2 k q) := by
  unfold k0_pay2
  simp only [shapeCast_self]
  exact congrArg (acc (ix2 p q) + ·) (Cert.LibPlainProduct.matmul_zero_plain_apply (M := 1024) (K := 1024) (N := 1024) x w none p q)

/-- The final store at `(p, q)`: the total's entry plus the bias row's entry `q`. -/
theorem finish_apply (tot : Vec Ideal S1024x1024 .f32) (b : Vec Ideal S1x1024 .f32) (p q : Fin 1024) :
    k0_pay3 tot b (ix2 p q) = tot (ix2 p q) + b (ix2 (0 : Fin 1) q) := by
  unfold k0_pay3
  simp only [shapeCast_self]
  exact congrArg (tot (ix2 p q) + ·) (broadcastTo_1b_ab_apply b _ p q)

end Cert.KernelIdeal.Payload

end
-- ==== Proof.LibNatRead.lean ====
/-
  Arrays read at natural-number coordinates.

  A block of a tiled array is addressed by `tile · size + offset`; carrying the bound `tile · size + offset < extent`
  through every statement about a block is noise. So a rank-2 array is read here at two natural numbers: the entry when
  both are in range, `0` otherwise (a value no statement below depends on). `at2_val` turns an entry read at an
  index's own coordinates back into the entry.
-/
import Idealize.ShloMosaic.Lib.ValueIdx

noncomputable section

namespace NatRead

open Idealize.ShloMosaic Idealize.ShloMosaic.ValueIdx

variable {M N : ℕ}

/-- The entry at row `a`, column `b`, or `0` out of range. -/
def at2 (v : (⟨2, ![M, N]⟩ : Shape).Idx → EReal) (a b : ℕ) : EReal :=
  if h : a < M ∧ b < N then v (ix2 ⟨a, h.1⟩ ⟨b, h.2⟩) else 0

theorem at2_of_lt (v : (⟨2, ![M, N]⟩ : Shape).Idx → EReal) {a b : ℕ} (ha : a < M) (hb : b < N) :
    at2 v a b = v (ix2 ⟨a, ha⟩ ⟨b, hb⟩) := dif_pos ⟨ha, hb⟩

/-- Read at an index's own coordinates: the entry. -/
theorem at2_val (v : (⟨2, ![M, N]⟩ : Shape).Idx → EReal) (i : (⟨2, ![M, N]⟩ : Shape).Idx) :
    at2 v (i 0).val (i 1).val = v i := by
  rw [at2_of_lt v (i 0).isLt (i 1).isLt]
  exact congrArg v (eq_ix2 i).symm

/-- Read at coordinates given as `Fin`s: the entry. -/
theorem at2_fin (v : (⟨2, ![M, N]⟩ : Shape).Idx → EReal) (a : Fin M) (b : Fin N) :
    at2 v a.val b.val = v (ix2 a b) := at2_of_lt v a.isLt b.isLt

end NatRead

end
-- ==== Proof.Blocks.lean ====
/-
  Which entries of the arrays a grid point's blocks hold.

  The grid is 8 × 4 × 4, points numbered row-major: point `t` is row tile `t / 16`, column tile `t / 4 % 4`, contraction
  step `t % 4`. At that point the input block is rows `1024 · (t / 16) + p`, columns `1024 · (t % 4) + k` of the
  8192 × 4096 input; the weight block is rows `1024 · (t % 4) + k`, columns `1024 · (t / 4 % 4) + q` of the transposed
  4096 × 4096 weight; the bias block is columns `1024 · (t / 4 % 4) + q` of the one bias row; and the output block is
  rows `1024 · (t / 16) + p`, columns `1024 · (t / 4 % 4) + q` of the result.
-/
import proofs.«137187_j48180943127010_1_alg».proof.Proof.Gen.KernelIdeal.Frame
import proofs.«137187_j48180943127010_1_alg».proof.Proof.LibNatRead
import Idealize.ShloMosaic.Lib.Pipeline.Value

noncomputable section

namespace Cert.KernelIdeal.Blocks

open Cert.KernelIdeal Cert.KernelIdeal.Gen
open Idealize.ShloMosaic Idealize.ShloMosaic.TcCoe Idealize.SL.Sem Idealize.ShloMosaic.ValueIdx NatRead

variable (m : (ℓ : Loc nD τ sig) → Buf (Elt Ideal) ℓ)

/-- The input, the transposed binarized weight and the bias row as the kernel region finds them. -/
abbrev xArr (c : Dev nD) : (⟨2, ![8192, 4096]⟩ : Shape).Idx → EReal := V m c main_v3
abbrev wArr (c : Dev nD) : (⟨2, ![4096, 4096]⟩ : Shape).Idx → EReal := V m c main_v4
abbrev bArr (c : Dev nD) : (⟨2, ![1, 4096]⟩ : Shape).Idx → EReal := V m c main_v5

/-- A point's three input blocks. -/
abbrev xBlk (c : Dev nD) (t : Fin cfg0.N) : (⟨2, ![1024, 1024]⟩ : Shape).Idx → EReal := iblk m c 0 t
abbrev wBlk (c : Dev nD) (t : Fin cfg0.N) : (⟨2, ![1024, 1024]⟩ : Shape).Idx → EReal := iblk m c 1 t
abbrev bBlk (c : Dev nD) (t : Fin cfg0.N) : (⟨2, ![1, 1024]⟩ : Shape).Idx → EReal := iblk m c 2 t

/-- The printed index maps in closed form, decided over the 128 points. -/
theorem index_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem xBlk_apply (c : Dev nD) (t : Fin cfg0.N) (p k : Fin 1024) :
    xBlk m c t (ix2 p k) = at2 (xArr m c) (1024 * (t.val / 16) + p.val) (1024 * (t.val % 4) + k.val) := by
  obtain ⟨e0, e1, -⟩ := index_facts t
  have hN : t.val < 128 := lt_of_lt_of_eq t.isLt N_0
  rw [at2_of_lt _ (by omega) (by omega)]
  show V m c main_v3 (((cfg0.win 0).blk t).view.emb (ix2 p k)) = V m c main_v3 _
  refine congrArg (V m c main_v3) (funext fun a => Fin.ext ?_)
  match a with
  | ⟨0, _⟩ => show win0_0.index t (0 : Fin 2) * 1024 + 1 * p.val = 1024 * (t.val / 16) + p.val; omega
  | ⟨1, _⟩ => show win0_0.index t (1 : Fin 2) * 1024 + 1 * k.val = 1024 * (t.val % 4) + k.val; omega

theorem wBlk_apply (c : Dev nD) (t : Fin cfg0.N) (k q : Fin 1024) :
    wBlk m c t (ix2 k q) = at2 (wArr m c) (1024 * (t.val % 4) + k.val) (1024 * (t.val / 4 % 4) + q.val) := by
  obtain ⟨-, -, e0, e1, -⟩ := index_facts t
  have hN : t.val < 128 := lt_of_lt_of_eq t.isLt N_0
  rw [at2_of_lt _ (by omega) (by omega)]
  show V m c main_v4 (((cfg0.win 1).blk t).view.emb (ix2 k q)) = V m c main_v4 _
  refine congrArg (V m c main_v4) (funext fun a => Fin.ext ?_)
  match a with
  | ⟨0, _⟩ => show win0_1.index t (0 : Fin 2) * 1024 + 1 * k.val = 1024 * (t.val % 4) + k.val; omega
  | ⟨1, _⟩ => show win0_1.index t (1 : Fin 2) * 1024 + 1 * q.val = 1024 * (t.val / 4 % 4) + q.val; omega

theorem bBlk_apply (c : Dev nD) (t : Fin cfg0.N) (q : Fin 1024) :
    bBlk m c t (ix2 (0 : Fin 1) q) = at2 (bArr m c) 0 (1024 * (t.val / 4 % 4) + q.val) := by
  obtain ⟨-, -, -, -, e0, e1, -⟩ := index_facts t
  have hN : t.val < 128 := lt_of_lt_of_eq t.isLt N_0
  rw [at2_of_lt _ (by omega) (by omega)]
  show V m c main_v5 (((cfg0.win 2).blk t).view.emb (ix2 (0 : Fin 1) q)) = V m c main_v5 _
  refine congrArg (V m c main_v5) (funext fun a => Fin.ext ?_)
  match a with
  | ⟨0, _⟩ => show win0_2.index t (0 : Fin 2) * 1 + 1 * (0 : Fin 1).val = 0; rw [e0]; rfl
  | ⟨1, _⟩ => show win0_2.index t (1 : Fin 2) * 1024 + 1 * q.val = 1024 * (t.val / 4 % 4) + q.val; omega

/-- The output block's entry `(p, q)` at point `t` sits at row `1024 · (t / 16) + p`, column `1024 · (t / 4 % 4) + q`. -/
theorem out_emb (t : Fin cfg0.N) (p q : Fin 1024) (a : Fin 2) :
    ((((cfg0.win 3).blk t).view.emb (ix2 p q)) a).val
      = match a with | ⟨0, _⟩ => 1024 * (t.val / 16) + p.val | ⟨1, _⟩ => 1024 * (t.val / 4 % 4) + q.val := by
  obtain ⟨-, -, -, -, -, -, e0, e1⟩ := index_facts t
  match a with
  | ⟨0, _⟩ => show win0_3.index t (0 : Fin 2) * 1024 + 1 * p.val = 1024 * (t.val / 16) + p.val; omega
  | ⟨1, _⟩ => show win0_3.index t (1 : Fin 2) * 1024 + 1 * q.val = 1024 * (t.val / 4 % 4) + q.val; omega

/-- An entry of the result lies in point `t`'s output block iff both coordinates are in the block's ranges. -/
theorem mem_out_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v6).slice (win0_3.rect t)).set ↔ _
  rw [View.set_slice_whole, Rect.mem_set_unit]
  exact Iff.rfl

end Cert.KernelIdeal.Blocks

end
-- ==== Proof.Accum.lean ====
/-
  The running total in the scratch buffer after every grid point.

  Point `n` adds to the running total, at entry `(p, q)`, the partial product
  `∑ k, X (1024 · (n / 16) + p, 1024 · (n % 4) + k) · Wt (1024 · (n % 4) + k, 1024 · (n / 4 % 4) + q)`
  of the input `X` and the transposed weight `Wt` as the region finds them. A contraction's first point (`n % 4 = 0`)
  starts from the zero block, the later ones from what the point before left. So after point `t` the scratch holds
  zero plus the partial products of the points `4 · (t / 4), …, t`: the fold of the run of points since the last reset,
  unrolled as a sum.
-/
import proofs.«137187_j48180943127010_1_alg».proof.Proof.Gen.KernelIdeal.Value
import proofs.«137187_j48180943127010_1_alg».proof.Proof.Pieces
import proofs.«137187_j48180943127010_1_alg».proof.Proof.Payload
import proofs.«137187_j48180943127010_1_alg».proof.Proof.Blocks

noncomputable section

open scoped BigOperators

namespace Cert.KernelIdeal.Accum

open Cert.KernelIdeal Cert.KernelIdeal.Gen Cert.KernelIdeal.Blocks
open Idealize.ShloMosaic Idealize.ShloMosaic.TcCoe Idealize.SL.Sem Idealize.ShloMosaic.ValueIdx NatRead

variable (m : (ℓ : Loc nD τ sig) → Buf (Elt Ideal) ℓ)

/-- The partial product point `n` adds, entry by entry. -/
def addend (c : Dev nD) (n : ℕ) : S1024x1024.Idx → EReal := fun j =>
  ∑ k : Fin 1024, at2 (xArr m c) (1024 * (n / 16) + (j 0).val) (1024 * (n % 4) + k.val)
    * at2 (wArr m c) (1024 * (n % 4) + k.val) (1024 * (n / 4 % 4) + (j 1).val)

/-- One accumulation step on point `t`'s blocks adds that point's partial product. -/
theorem step_eq (c : Dev nD) (t : Fin cfg0.N) (acc : Vec Ideal S1024x1024 .f32) (j : S1024x1024.Idx) :
    k0_pay2 acc (iblk m c 0 t) (iblk m c 1 t) j = acc j + addend m c t.val j := by
  obtain ⟨p, q, rfl⟩ : ∃ (p q : Fin 1024), j = ix2 p q := ⟨j 0, j 1, eq_ix2 j⟩
  refine (Payload.step_apply acc (xBlk m c t) (wBlk m c t) p q).trans ?_
  refine congrArg (acc (ix2 p q) + ·) (Finset.sum_congr rfl fun k _ => ?_)
  rw [xBlk_apply, wBlk_apply]

/-- After point `t` the scratch holds zero plus the partial products of the points since the contraction began. -/
theorem scratch_after (c : Dev nD) (t : Fin cfg0.N) (j : S1024x1024.Idx) :
    (outsAt0 m c t.val t.isLt).2 j
      = 0 + ∑ s ∈ Finset.range (t.val % 4 + 1), addend m c (4 * (t.val / 4) + s) j := by
  rw [Value.soutsAt0_0_eq m c t]
  refine Pipeline.accAt_add_apply (N := cfg0.N) (ι := S1024x1024.Idx) (β := EReal)
    (fun n h => Value.scAt0_0 m c n h (VS0_0.read (Elt Ideal) VS0_0.junk)) (Value.scAt0_0 m c) (fun _ => 0) (addend m c)
    (4 * (t.val / 4)) 3 ?_ ?_ (t.val % 4) (by omega) _ j
  · intro h i
    have h0 : (4 * (t.val / 4)) % 4 = 0 := by omega
    have h1 : ¬(4 * (t.val / 4)) % 4 = 3 := by omega
    show Value.scAt0_0 m c (4 * (t.val / 4)) h _ i = _
    unfold Value.scAt0_0
    rw [dif_pos h0, dif_neg h1]
    refine (congrFun (Pieces.scratch_first (F := Ideal) c (grid0.coords (⟨4 * (t.val / 4), h⟩ : Fin cfg0.N)) (ms0_0 (⟨4 * (t.val / 4), h⟩ : Fin cfg0.N)) (hs0_0 (⟨4 * (t.val / 4), h⟩ : Fin cfg0.N)) (ms0_1 (⟨4 * (t.val / 4), h⟩ : Fin cfg0.N)) (hs0_1 (⟨4 * (t.val / 4), h⟩ : Fin cfg0.N)) (ms0_2 (⟨4 * (t.val / 4), h⟩ : Fin cfg0.N)) (hs0_2 (⟨4 * (t.val / 4), h⟩ : Fin cfg0.N)) (ms0_3 (⟨4 * (t.val / 4), h⟩ : Fin cfg0.N)) (hs0_3 (⟨4 * (t.val / 4), h⟩ : Fin cfg0.N)) scM0_0 (Memref.isWhole_whole _) ((hcond0_0 (⟨4 * (t.val / 4), h⟩ : Fin cfg0.N)).mpr h0) (fun hh => h1 ((hcond0_1 (⟨4 * (t.val / 4), h⟩ : Fin cfg0.N)).mp hh)) (iblk m c 0 (⟨4 * (t.val / 4), h⟩ : Fin cfg0.N)) (iblk m c 1 (⟨4 * (t.val / 4), h⟩ : Fin cfg0.N)) (iblk m c 2 (⟨4 * (t.val / 4), h⟩ : Fin cfg0.N))) i).trans ?_
    refine (step_eq m c (⟨4 * (t.val / 4), h⟩ : Fin cfg0.N) _ i).trans ?_
    obtain ⟨p, q, rfl⟩ : ∃ (p q : Fin 1024), i = ix2 p q := ⟨i 0, i 1, eq_ix2 i⟩
    rw [Payload.reset_apply]
  · intro n h acc i hlo hhi
    have h0 : ¬n % 4 = 0 := by omega
    unfold Value.scAt0_0
    rw [dif_neg h0]
    by_cases h1 : n % 4 = 3
    · rw [dif_pos h1]
      exact (congrFun (Pieces.scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) acc) i).trans (step_eq m c (⟨n, h⟩ : Fin cfg0.N) acc i)
    · rw [dif_neg h1]
      exact (congrFun (Pieces.scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) acc) i).trans (step_eq m c (⟨n, h⟩ : Fin cfg0.N) acc i)

end Cert.KernelIdeal.Accum

end
-- ==== Proof.HostSide.lean ====
/-
  What the host operations before the kernel region leave in the three arrays the region reads.

  * The input is converted to a narrower float format: on the extended reals that is the identity, so the region finds
    the input itself.
  * The weight is rounded to the nearest integer (ties to even), clipped to `[0, 1]` — the binarized weight `WB` — then
    transposed and converted: the region finds `WBᵀ`, entry `(k, c)` holding `WB (c, k)`.
  * The bias vector is reshaped to one row: entry `(0, c)` holds `bias c`.
-/
import proofs.«137187_j48180943127010_1_alg».proof.Proof.Gen.KernelIdeal.Frame
import Idealize.ShloMosaic.Lib.StableHlo.Run
import Idealize.ShloMosaic.Lib.Pipeline.Value
import Idealize.ShloMosaic.Lib.ValueLayout

noncomputable section

namespace Cert.KernelIdeal.HostSide

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The binarized weight: round to nearest even, then clip between `0` and `1`. -/
def binarized (w : FVec Ideal S4096x4096 .f32) : FVec Ideal S4096x4096 .f32 :=
  minimumf (broadcastInDim S4096x4096 ![] bcast_S_S4096x4096 (id (constant (F := Ideal) S_ .f32 0x3F800000#32)))
    (maximumf (broadcastInDim S4096x4096 ![] bcast_S_S4096x4096 (id (constant (F := Ideal) S_ .f32 0x00000000#32)))
      (Host.roundeven (F := Ideal) w))

/-- The region finds the input unchanged. -/
theorem input_eq (c : Dev nD) :
    (V m c main_v3 : S8192x4096.Idx → EReal) = m ((c : Thread nD τ).loc main_arg0) := by
  dsimp only [Gen.V]
  simp only [Gen.hostOps0, Gen.hostOps0_1, Gen.hostOps0_2, Gen.hostOps0_3, List.flatten_cons, List.flatten_nil,
    List.append_nil, List.cons_append, List.nil_append]
  after_results
  rfl

/-- The region finds the transposed binarized weight. -/
theorem weight_eq (c : Dev nD) :
    (V m c main_v4 : S4096x4096.Idx → EReal)
      = transpose S4096x4096 [1, 0] (binarized (m ((c : Thread nD τ).loc main_arg1))) transposes_S4096x4096_S4096x4096_1_0 := by
  dsimp only [Gen.V]
  simp only [Gen.hostOps0, Gen.hostOps0_1, Gen.hostOps0_2, Gen.hostOps0_3, List.flatten_cons, List.flatten_nil,
    List.append_nil, List.cons_append, List.nil_append]
  after_results
  rfl

theorem weight_apply (c : Dev nD) (k col : Fin 4096) :
    (V m c main_v4 : S4096x4096.Idx → EReal) (ix2 k col) = binarized (m ((c : Thread nD τ).loc main_arg1)) (ix2 col k) := by
  rw [weight_eq]
  exact transpose_ix2_apply _ _ k col

/-- The region finds the bias as one row. -/
theorem bias_eq (c : Dev nD) :
    (V m c main_v5 : S1x4096.Idx → EReal)
      = shapeCast S1x4096 (m ((c : Thread nD τ).loc main_arg2)) shapeCasts_S4096_S1x4096 := by
  dsimp only [Gen.V]
  simp only [Gen.hostOps0, Gen.hostOps0_1, Gen.hostOps0_2, Gen.hostOps0_3, List.flatten_cons, List.flatten_nil,
    List.append_nil, List.cons_append, List.nil_append]
  after_results
  rfl

theorem bias_apply (c : Dev nD) (col : Fin 4096) :
    (V m c main_v5 : S1x4096.Idx → EReal) (ix2 (0 : Fin 1) col) = m ((c : Thread nD τ).loc main_arg2) (ix1 col) := by
  rw [bias_eq]
  exact shapeCast_a_1a_apply _ _ 0 col

end Cert.KernelIdeal.HostSide

end
-- ==== Proof.LibBlockSum.lean ====
/-
  A sum over a long index range cut into consecutive blocks of equal length: in a commutative monoid (the extended reals'
  addition is one) the sum over `a · b` positions is the sum, block by block, of the sums inside each block of length
  `b`; position `b · s + x` is position `x` of block `s`. Stated for functions on the naturals (no bound travels with
  the position), and for functions on `Fin (a · b)`.
-/
import Mathlib.Algebra.BigOperators.Fin
import Mathlib.Algebra.BigOperators.Intervals

open scoped BigOperators

namespace BlockSum

variable {M : Type*} [AddCommMonoid M]

/-- The first `a · b` terms are `a` consecutive blocks of `b` terms. -/
theorem sum_range_mul (f : ℕ → M) (a b : ℕ) :
    ∑ i ∈ Finset.range (a * b), f i = ∑ s ∈ Finset.range a, ∑ x ∈ Finset.range b, f (b * s + x) := by
  induction a with
  | zero => simp
  | succ a ih =>
    rw [Nat.succ_mul, Finset.sum_range_add, ih, Finset.sum_range_succ, Nat.mul_comm a b]

/-- The same over the finite index types: a sum over `Fin (a · b)` of a function of the position's value. -/
theorem sum_fin_mul (f : ℕ → M) (a b : ℕ) :
    ∑ i : Fin (a * b), f i.val = ∑ s ∈ Finset.range a, ∑ x : Fin b, f (b * s + x.val) := by
  rw [Fin.sum_univ_eq_sum_range (fun i => f i) (a * b), sum_range_mul]
  refine Finset.sum_congr rfl fun s _ => ?_
  rw [← Fin.sum_univ_eq_sum_range (fun x => f (b * s + x)) b]

end BlockSum
-- ==== Proof.Spec.lean ====
/-
  The binarized linear layer, entry by entry, and the two facts about extended-real arithmetic its two computations
  meet in.

  With `X` the 8192 × 4096 input, `WB` the 4096 × 4096 binarized weight (row `o` holds output feature `o`) and `B` the
  bias, the layer's entry `(r, c)` is `(∑ k, X (r, k) · WB (c, k)) + B c`.

  * The straight-through estimator adds `WB - w` back to the raw weight `w`. For a FINITE `w` this is `WB` again, on all
    of the extended reals (an infinite `WB` absorbs the finite summand on both sides).
  * A contraction over 4096 positions taken as four consecutive blocks of 1024, each block's partial sum added to a
    running total that starts at zero, is the whole contraction: addition of extended reals is associative and
    commutative, so only the grouping changes.
-/
import Idealize.ShloMosaic.PureOps.Ideal.Laws
import Idealize.ShloMosaic.Lib.ValueIdx
import proofs.«137187_j48180943127010_1_alg».proof.Proof.LibBlockSum
import proofs.«137187_j48180943127010_1_alg».proof.Proof.LibNatRead

noncomputable section

open scoped BigOperators

namespace Cert.Linear

open Idealize.ShloMosaic Idealize.ShloMosaic.ValueIdx NatRead

/-- Entry `(r, c)` of `X · WBᵀ + B`. -/
def lin (X : (⟨2, ![8192, 4096]⟩ : Shape).Idx → EReal) (WB : (⟨2, ![4096, 4096]⟩ : Shape).Idx → EReal)
    (B : (⟨1, ![4096]⟩ : Shape).Idx → EReal) : (⟨2, ![8192, 4096]⟩ : Shape).Idx → EReal :=
  fun i => (∑ k : Fin 4096, X (ix2 (i 0) k) * WB (ix2 (i 1) k)) + B (ix1 (i 1))

/-- Adding `b - a` back to a finite `a` gives `b`, whatever extended real `b` is. -/
theorem add_sub_self_of_real (a : ℝ) (b : EReal) : (a : EReal) + (b - (a : EReal)) = b := by
  induction b using EReal.rec with
  | bot => simp
  | coe b => norm_cast; ring
  | top => simp

/-- A sum over 4096 positions as four consecutive blocks of 1024. -/
theorem sum_four_blocks (f : ℕ → EReal) :
    ∑ s ∈ Finset.range 4, ∑ x : Fin 1024, f (1024 * s + x.val) = ∑ k : Fin 4096, f k.val :=
  (BlockSum.sum_fin_mul f 4 1024).symm

/-- The layer's entry from the K-blocked accumulation: the running total starts at zero, takes the four blocks' partial
    products of `X`'s row with the TRANSPOSED weight's column, and the bias row is added last. `Wt` is the transposed
    weight: `Wt (k, c) = WB (c, k)`. -/
theorem blocked_eq_lin (X : (⟨2, ![8192, 4096]⟩ : Shape).Idx → EReal) (WB Wt : (⟨2, ![4096, 4096]⟩ : Shape).Idx → EReal)
    (B : (⟨1, ![4096]⟩ : Shape).Idx → EReal) (hWt : ∀ (k c : Fin 4096), Wt (ix2 k c) = WB (ix2 c k))
    (i : (⟨2, ![8192, 4096]⟩ : Shape).Idx) :
    ((0 : EReal) + ∑ s ∈ Finset.range 4, ∑ x : Fin 1024,
        at2 X (i 0).val (1024 * s + x.val) * at2 Wt (1024 * s + x.val) (i 1).val) + B (ix1 (i 1))
      = lin X WB B i := by
  rw [zero_add, sum_four_blocks (fun k => at2 X (i 0).val k * at2 Wt k (i 1).val)]
  unfold lin
  congr 1
  refine Finset.sum_congr rfl fun k _ => ?_
  rw [at2_of_lt X (idx2_lt0 i) k.isLt, at2_of_lt Wt k.isLt (idx2_lt1 i), hWt]
  rfl

end Cert.Linear

end
-- ==== Proof.Final.lean ====
/-
  The kernel's result array.

  A contraction's last point (`t % 4 = 3`) is the only one that writes its output block back, and what it writes is
  the scratch's running total — zero plus the four partial products of the contraction — plus the bias row. Its block
  is rows `1024 · (t / 16) + p`, columns `1024 · (t / 4 % 4) + q` of the result, so entry `(r, c)` of the result, which lies
  in the block of point `16 · (r / 1024) + 4 · (c / 1024) + 3`, ends at
  `(0 + ∑ s < 4, ∑ x < 1024, X (r, 1024 s + x) · Wt (1024 s + x, c)) + bias row c`,
  and the 32 output blocks tile the result. With what the host operations left in `X`, `Wt` and the bias row, that is
  the linear layer over the binarized weight.
-/
import proofs.«137187_j48180943127010_1_alg».proof.Proof.Accum
import proofs.«137187_j48180943127010_1_alg».proof.Proof.HostSide
import proofs.«137187_j48180943127010_1_alg».proof.Proof.Spec

noncomputable section

open scoped BigOperators

namespace Cert.KernelIdeal.Final

open Cert.KernelIdeal Cert.KernelIdeal.Gen Cert.KernelIdeal.Blocks Cert.KernelIdeal.Accum
open Idealize.ShloMosaic Idealize.ShloMosaic.TcCoe Idealize.SL.Sem Idealize.ShloMosaic.ValueIdx NatRead
open Idealize.ShloMosaic.Pipeline (Dat)

variable (m : (ℓ : Loc nD τ sig) → Buf (Elt Ideal) ℓ) (ρ : Dev nD → PrngReg)

/-- The result, entry by entry, over the arrays the region finds: the blocked contraction plus the bias row. -/
def blocked (c : Dev nD) : S8192x4096.Idx → EReal := fun i =>
  ((0 : EReal) + ∑ s ∈ Finset.range 4, ∑ x : Fin 1024,
      at2 (xArr m c) (i 0).val (1024 * s + x.val) * at2 (wArr m c) (1024 * s + x.val) (i 1).val)
    + at2 (bArr m c) 0 (i 1).val

/-- At a contraction's last point the output block is the scratch's total plus the bias block. -/
theorem out_at_last (c : Dev nD) (t : Fin cfg0.N) (h0 : ¬t.val % 4 = 0) (h3 : t.val % 4 = 3) :
    (outsAt0 m c t.val t.isLt).1 = k0_pay3 ((outsAt0 m c t.val t.isLt).2) (iblk m c 2 t) := by
  rw [outsAt0_C m c t h0 h3]
  dsimp only
  exact (Pieces.output_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h3) (iblk m c 0 t) (iblk m c 1 t) (iblk m c 2 t) (outsAt0 m c (t.val - 1) (Nat.lt_of_le_of_lt (Nat.sub_le _ _) t.isLt)).2).trans
    (congrArg (k0_pay3 · (iblk m c 2 t))
      (Pieces.scratch_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h3) (iblk m c 0 t) (iblk m c 1 t) (iblk m c 2 t) (outsAt0 m c (t.val - 1) (Nat.lt_of_le_of_lt (Nat.sub_le _ _) t.isLt)).2).symm)

theorem out_row (t : Fin cfg0.N) (p q : Fin 1024) :
    ((((cfg0.win 3).blk t).view.emb (ix2 p q)) 0).val = 1024 * (t.val / 16) + p.val := out_emb t p q 0
theorem out_col (t : Fin cfg0.N) (p q : Fin 1024) :
    ((((cfg0.win 3).blk t).view.emb (ix2 p q)) 1).val = 1024 * (t.val / 4 % 4) + q.val := out_emb t p q 1

/-- What a write-back writes is its block of `blocked`. -/
theorem flushed_eq (c : Dev nD) (t : Fin cfg0.N) (hf : (cfg0.win 3).flush t = true) :
    (dats m 0 c).flushed 3 t = ((cfg0.win 3).blk t).view.read (Elt Ideal) (blocked m c) := by
  have h3 : t.val % 4 = 3 := (flush0_3 t).mp hf
  have h0 : ¬t.val % 4 = 0 := by omega
  rw [Value.flushed3 m c t, out_at_last m c t h0 h3]
  funext j
  obtain ⟨p, q, rfl⟩ : ∃ (p q : Fin 1024), j = ix2 p q := ⟨j 0, j 1, eq_ix2 j⟩
  show k0_pay3 ((outsAt0 m c t.val t.isLt).2) (iblk m c 2 t) (ix2 p q) = blocked m c (((cfg0.win 3).blk t).view.emb (ix2 p q))
  refine (Payload.finish_apply _ (bBlk m c t) p q).trans ?_
  rw [scratch_after m c t (ix2 p q), bBlk_apply, h3]
  unfold blocked
  rw [out_row, out_col]
  refine congrArg (· + at2 (bArr m c) 0 (1024 * (t.val / 4 % 4) + q.val)) (congrArg ((0 : EReal) + ·) ?_)
  refine Finset.sum_congr rfl fun s hs => ?_
  have hs4 : s < 4 := Finset.mem_range.mp hs
  have e1 : (4 * (t.val / 4) + s) / 16 = t.val / 16 := by omega
  have e2 : (4 * (t.val / 4) + s) % 4 = s := by omega
  have e3 : (4 * (t.val / 4) + s) / 4 % 4 = t.val / 4 % 4 := by omega
  unfold addend
  rw [e1, e2, e3]

/-- Every entry of the result lies in the output block of its contraction's last point. -/
theorem cover (i : S8192x4096.Idx) :
    ∃ t : Fin cfg0.N, (cfg0.win 3).flush t = true ∧ i ∈ ((cfg0.win 3).blk t).view.set := by
  have h0 : (i 0).val < 8192 := idx2_lt0 i
  have h1 : (i 1).val < 4096 := idx2_lt1 i
  have hN : cfg0.N = 128 := N_0
  have hlt : 16 * ((i 0).val / 1024) + 4 * ((i 1).val / 1024) + 3 < cfg0.N := by rw [hN]; omega
  obtain ⟨-, -, -, -, -, -, e0, e1⟩ := index_facts ⟨16 * ((i 0).val / 1024) + 4 * ((i 1).val / 1024) + 3, hlt⟩
  refine ⟨⟨16 * ((i 0).val / 1024) + 4 * ((i 1).val / 1024) + 3, hlt⟩, (flush0_3 _).mpr (by dsimp only; omega), ?_⟩
  rw [mem_out_blk]
  dsimp only at e0 e1
  intro a
  match a with
  | ⟨0, _⟩ =>
    show win0_3.index ⟨16 * ((i 0).val / 1024) + 4 * ((i 1).val / 1024) + 3, hlt⟩ (0 : Fin 2) * 1024 ≤ (i 0).val
      ∧ (i 0).val < win0_3.index ⟨16 * ((i 0).val / 1024) + 4 * ((i 1).val / 1024) + 3, hlt⟩ (0 : Fin 2) * 1024 + 1024
    omega
  | ⟨1, _⟩ =>
    show win0_3.index ⟨16 * ((i 0).val / 1024) + 4 * ((i 1).val / 1024) + 3, hlt⟩ (1 : Fin 2) * 1024 ≤ (i 1).val
      ∧ (i 1).val < win0_3.index ⟨16 * ((i 0).val / 1024) + 4 * ((i 1).val / 1024) + 3, hlt⟩ (1 : Fin 2) * 1024 + 1024
    omega

/-- So the result array ends at `blocked`. -/
theorem final (c : Dev nD) : (dats m 0 c).arrAt 3 cfg0.N = blocked m c :=
  (dats m 0 c).arrAt_eq_of_cover 3 (blocked m c) (flushed_eq m c) cover

/-- Over what the host operations left in the region's arrays, `blocked` is the linear layer of the inputs over the
    binarized weight. -/
theorem blocked_eq (c : Dev nD) :
    blocked m c = Cert.Linear.lin (m ((c : Thread nD τ).loc main_arg0)) (HostSide.binarized (m ((c : Thread nD τ).loc main_arg1))) (m ((c : Thread nD τ).loc main_arg2)) := by
  funext i
  have hb : at2 (bArr m c) 0 (i 1).val = (m ((c : Thread nD τ).loc main_arg2)) (ix1 (i 1)) := by
    rw [at2_of_lt _ Nat.one_pos (idx2_lt1 i)]
    exact HostSide.bias_apply m c (i 1)
  have hl := Cert.Linear.blocked_eq_lin (xArr m c) (HostSide.binarized (m ((c : Thread nD τ).loc main_arg1))) (wArr m c) (m ((c : Thread nD τ).loc main_arg2))
    (fun k col => HostSide.weight_apply m c k col) i
  rw [show xArr m c = m ((c : Thread nD τ).loc main_arg0) from HostSide.input_eq m c] at hl
  unfold blocked
  rw [hb, show xArr m c = m ((c : Thread nD τ).loc main_arg0) from HostSide.input_eq m c]
  exact hl

/-- The kernel's run, read: the result at the linear layer over the binarized weight, the arguments unchanged. -/
theorem run : θ_run defs (onTc (τ := τ) (main (F := Ideal))) ⟨m, fun _ => 0, ρ⟩ fun r => ∀ c : Dev nD,
      r.2.mem ((c : Thread nD τ).loc main_v6)
        = Cert.Linear.lin (m ((c : Thread nD τ).loc main_arg0)) (HostSide.binarized (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (blocked_eq m c)), (h c).2⟩)
    (Value.run_blocks m ρ)

end Cert.KernelIdeal.Final

end
-- ==== Proof.RefValue.lean ====
/-
  The reference's result is the linear layer over the binarized weight.

  The reference adds `WB - w` back to the raw weight `w` (the straight-through estimator), contracts the input's rows
  with that matrix's rows, and adds the bias to every row. Where `w` is finite the matrix is `WB` itself, so entry
  `(r, c)` is `(∑ k, x (r, k) · WB (c, k)) + bias c`.
-/
import proofs.«137187_j48180943127010_1_alg».proof.Proof.Gen.ReferenceIdeal.Read
import proofs.«137187_j48180943127010_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

theorem lidx_eq (i : S8192x4096.Idx) (k : Fin 4096) : lidx_main_v4 i k = ix2 (i 0) k :=
  funext fun a => match a with | ⟨0, _⟩ => rfl | ⟨1, _⟩ => rfl

theorem ridx_eq (i : S8192x4096.Idx) (k : Fin 4096) : ridx_main_v4 i k = ix2 (i 1) k :=
  funext fun a => match a with | ⟨0, _⟩ => rfl | ⟨1, _⟩ => rfl

theorem bias_idx_eq (i : S8192x4096.Idx) : idx_main_v5 (idx_main_v6 i) = ix1 (i 1) :=
  funext fun a => match a with | ⟨0, _⟩ => rfl

/-- With a finite weight the reference computes the layer over `WB` = the rounded and clipped weight. -/
theorem result_eq (x : FVec Ideal S8192x4096 .f32) (w : FVec Ideal S4096x4096 .f32) (b : FVec Ideal S4096 .f32)
    (hw : ∀ i, ∃ a : ℝ, w i = (a : EReal)) :
    val_main_v7 (F := Ideal) x w b = Cert.Linear.lin x (val_main_v1 (F := Ideal) w) b := by
  funext i
  rw [val_main_v7_apply, val_main_v4_apply, val_main_v6_apply, val_main_v5_apply, bias_idx_eq]
  unfold Cert.Linear.lin
  refine congrArg (· + b (ix1 (i 1))) (Finset.sum_congr rfl fun k _ => ?_)
  rw [val_main_v3_apply, val_main_v2_apply, lidx_eq, ridx_eq]
  obtain ⟨a, ha⟩ := hw (ix2 (i 1) k)
  show x (ix2 (i 0) k) * (w (ix2 (i 1) k) + (val_main_v1 (F := Ideal) w (ix2 (i 1) k) - w (ix2 (i 1) k))) = _
  rw [ha, Cert.Linear.add_sub_self_of_real]

end Cert.ReferenceIdeal.RefValue

end
-- ==== Proof.Finite.lean ====
/-
  The precondition, read back: every entry of the weight is a real number.

  The precondition is the conjunction of three tests, one per input: every entry's absolute value is below `+∞`. An
  extended real whose absolute value is below `+∞` is neither infinity, so it is a real. Only the weight's test is
  needed: the straight-through estimator's `w + (WB - w)` collapses to `WB` exactly when `w` is finite.
-/
import proofs.«137187_j48180943127010_1_alg».proof.Pre_finite_inputs
import Idealize.ShloMosaic.Lib.ReduceAll
import Idealize.ShloMosaic.Lib.ValueIdx

noncomputable section

namespace Cert.Finite

open Idealize.ShloMosaic Idealize.ShloMosaic.ValueIdx Cert.Pre_finite_inputs

variable [Cert.Pre_finite_inputs.Facts]

instance : Subsingleton S_.Idx := ⟨fun a b => funext fun d => d.elim0⟩

/-- `|x| < +∞` leaves only the reals. -/
theorem real_of_abs_lt_inf (x : EReal)
    (h : Ideal.cmp .olt (max x (-x)) (Ideal.ofBits .f32 0x7F800000#32) = 1#1) : ∃ a : ℝ, x = (a : EReal) := by
  have hinf : Ideal.ofBits .f32 0x7F800000#32 = ⊤ := by simp [Ideal.ofBits, Ideal.ieee]
  rw [hinf] at h
  induction x using EReal.rec with
  | bot => simp [Ideal.cmp] at h
  | coe a => exact ⟨a, rfl⟩
  | top => simp [Ideal.cmp] at h

/-- Under the precondition every entry of the weight is a real. -/
theorem weight_real (x : FVec Ideal S8192x4096 .f32) (w : FVec Ideal S4096x4096 .f32) (b : FVec Ideal S4096 .f32)
    (h : fn (F := Ideal) x w b = fun _ => 1#1) (i : S4096x4096.Idx) : ∃ a : ℝ, w i = (a : EReal) := by
  have h0 := congrFun h ix0
  dsimp only [fn] at h0
  obtain ⟨h1, -⟩ := IntOp.andi_eq_one.1 h0
  obtain ⟨-, h2⟩ := IntOp.andi_eq_one.1 h1
  have h3 := Host.reduce_andi_all _ _ _ _ _ h2 i
  exact real_of_abs_lt_inf (w i) h3

end Cert.Finite

end
-- ==== Proof.lean ====
/-
  A linear layer with a binarized weight: `out = x · WBᵀ + bias`, where `WB = clip (round w, 0, 1)` entry by entry, for
  `x` of 8192 × 4096, `w` of 4096 × 4096 and `bias` of 4096 entries.

  The kernel rounds, clips and transposes the weight on the host, then contracts on a grid of 8 × 4 row and column
  tiles of 1024 × 1024 with the contraction cut in four steps of 1024: a scratch block starts at zero at a
  contraction's first step, takes one partial product per step, and at the last step the total plus the bias row is
  stored into the output tile. On the extended reals the order and grouping of a sum do not matter, so output entry
  `(r, c)` is `(∑ k, x (r, k) · WB (c, k)) + bias c` (Proof/Final.lean, over Proof/Accum.lean's running total).

  The reference contracts `x` with `w + (WB - w)`, the straight-through estimator, and adds the bias. For a FINITE
  weight entry `w + (WB - w) = WB` on the extended reals, so the reference's entry `(r, c)` is the same expression
  (Proof/RefValue.lean); finiteness of the weight is the one thing used of the precondition (Proof/Finite.lean).

  Both programs round and clip with the same operations, so `WB` is one term on both sides. The three frames are the
  generated ones (the reference's is its run with the result dropped); the idealization rewrote nothing.
-/
import proofs.«137187_j48180943127010_1_alg».proof.Defs
import proofs.«137187_j48180943127010_1_alg».proof.Proof.Gen.Kernel
import proofs.«137187_j48180943127010_1_alg».proof.Proof.Gen.Kernel.Skeleton
import proofs.«137187_j48180943127010_1_alg».proof.Proof.Gen.Kernel.Launch
import proofs.«137187_j48180943127010_1_alg».proof.Proof.Gen.Kernel.Points
import proofs.«137187_j48180943127010_1_alg».proof.Proof.Gen.Kernel.Frame
import proofs.«137187_j48180943127010_1_alg».proof.Proof.Gen.KernelIdeal
import proofs.«137187_j48180943127010_1_alg».proof.Proof.Gen.KernelIdeal.Skeleton
import proofs.«137187_j48180943127010_1_alg».proof.Proof.Gen.KernelIdeal.Launch
import proofs.«137187_j48180943127010_1_alg».proof.Proof.Gen.KernelIdeal.Points
import proofs.«137187_j48180943127010_1_alg».proof.Proof.Gen.KernelIdeal.Frame
import proofs.«137187_j48180943127010_1_alg».proof.Proof.Gen.ReferenceIdeal
import proofs.«137187_j48180943127010_1_alg».proof.Proof.Gen.Pre_finite_inputs
import proofs.«137187_j48180943127010_1_alg».proof.Proof.Gen.KernelIdeal.Value
import proofs.«137187_j48180943127010_1_alg».proof.Proof.Gen.ReferenceIdeal.Run
import proofs.«137187_j48180943127010_1_alg».proof.Proof.Gen.ReferenceIdeal.Read
import proofs.«137187_j48180943127010_1_alg».proof.Proof.Final
import proofs.«137187_j48180943127010_1_alg».proof.Proof.RefValue
import proofs.«137187_j48180943127010_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both runs end at the linear layer of the arguments over the binarized weight: the kernel's by its blocked
    accumulation, the reference's because the weight is finite; the two binarized weights are one term. -/
theorem algebraic : Cert.algebraic_KernelIdeal_ReferenceIdeal := by
  intro m ρ m' ρ' hpre hagree
  refine ⟨fun c => Cert.Linear.lin (m ((c.tc : Thread Cert.KernelIdeal.nD Cert.KernelIdeal.τ).loc Cert.KernelIdeal.main_arg0)) (Cert.KernelIdeal.HostSide.binarized (m ((c.tc : Thread Cert.KernelIdeal.nD Cert.KernelIdeal.τ).loc Cert.KernelIdeal.main_arg1))) (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  have hw : ∀ i, ∃ a : ℝ, (m ((c.tc : Thread Cert.KernelIdeal.nD Cert.KernelIdeal.τ).loc Cert.KernelIdeal.main_arg1)) i = (a : EReal) := fun i => Cert.Finite.weight_real _ _ _ (hpre c) i
  rw [Cert.ReferenceIdeal.Read.val_main_v7_eq, (hagree c).1, (hagree c).2.1, (hagree c).2.2,
    Cert.ReferenceIdeal.RefValue.result_eq _ _ _ hw]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
